-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x128 .f32) (main_arg1 : IVec S1600000 32) (main_arg2 : IVec S1600000 32) (main_arg3 : FVec F S128x64 .f32) (main_arg4 : FVec F S64 .f32) (main_arg5 : FVec F S64x16 .f32) (main_arg6 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_v13 main_v16
-- ==== Kernel.lean ====
abbrev S50000x128 : Shape := ⟨2, ![50000, 128]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S5000x128 : Shape := ⟨2, ![5000, 128]⟩
abbrev S5000x1 : Shape := ⟨2, ![5000, 1]⟩
abbrev S1600000x128 : Shape := ⟨2, ![1600000, 128]⟩
abbrev S1x64 : Shape := ⟨2, ![1, 64]⟩
abbrev S50000x64 : Shape := ⟨2, ![50000, 64]⟩
abbrev S5000x64 : Shape := ⟨2, ![5000, 64]⟩
abbrev S1600000x64 : Shape := ⟨2, ![1600000, 64]⟩
abbrev S1x16 : Shape := ⟨2, ![1, 16]⟩
abbrev S50000x16 : Shape := ⟨2, ![50000, 16]⟩
abbrev S5000x16 : Shape := ⟨2, ![5000, 16]⟩

abbrev nBuf : Space → Nat
  | .hbm => 50
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S50000x1, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S50000x1, .f32⟩
  | .hbm, ⟨19, _⟩ => ⟨S50000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S50000x128, .f32⟩
  | .hbm, ⟨31, _⟩ => ⟨S1600000x1, .i32⟩
  | .hbm, ⟨32, _⟩ => ⟨S50000x128, .f32⟩
  | .hbm, ⟨33, _⟩ => ⟨S1x64, .f32⟩
  | .hbm, ⟨34, _⟩ => ⟨S50000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S50000x64, .f32⟩
  | .hbm, ⟨46, _⟩ => ⟨S1600000x1, .i32⟩
  | .hbm, ⟨47, _⟩ => ⟨S50000x64, .f32⟩
  | .hbm, ⟨48, _⟩ => ⟨S1x16, .f32⟩
  | .hbm, ⟨49, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S128x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x1, .f32⟩
  | .local _ .vmem, ⟨19, _⟩ => ⟨S5000x1, .f32⟩
  | .local _ .vmem, ⟨20, _⟩ => ⟨S64x16, .f32⟩
  | .local _ .vmem, ⟨21, _⟩ => ⟨S1x16, .f32⟩
  | .local _ .vmem, ⟨22, _⟩ => ⟨S5000x16, .f32⟩
  | .local _ .vmem, ⟨23, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  broadcasts_S5000x1_S5000x128 : S5000x1.Broadcasts S5000x128
  bcast_S_S50000x128 : S_.BroadcastsInDim S50000x128 (![] : Fin 0 → Fin S50000x128.rank)
  shapeCasts_S64_S1x64 : S64.ShapeCasts S1x64
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S16_S1x16 : S16.ShapeCasts S1x16
  shapeCasts_S5000x64_S5000x64 : S5000x64.ShapeCasts S5000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x64_S5000x64_1_0_0_1_n_n_wf : DotDims.WF S5000x128 S128x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x16.size a ≤ S64x16.size a
  hwx2_2 : ∀ i : grid2.Coords, EltTy.bits .f32 = 32 ∨ (Rect.block (s := S64x16) S64x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x16.size a ≤ S50000x16.size a
  hwx2_4 : ∀ i : grid2.Coords, EltTy.bits .f32 = 32 ∨ (Rect.block (s := S50000x16) S5000x16.size (cc2_transform_4 i) (hinb2_4 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S5000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S50000x64 : Shape := ⟨2, ![50000, 64]⟩
abbrev S1x64 : Shape := ⟨2, ![1, 64]⟩
abbrev S1600000x64 : Shape := ⟨2, ![1600000, 64]⟩
abbrev S50000x16 : Shape := ⟨2, ![50000, 16]⟩
abbrev S1x16 : Shape := ⟨2, ![1, 16]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S1600000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S50000x128, .f32⟩
  | .hbm, ⟨42, _⟩ => ⟨S1600000x1, .i32⟩
  | .hbm, ⟨43, _⟩ => ⟨S50000x128, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S50000x64, .f32⟩
  | .hbm, ⟨54, _⟩ => ⟨S_, .f32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S1600000, .f32⟩
  | .hbm, ⟨59, _⟩ => ⟨S_, .f32⟩
  | .hbm, ⟨60, _⟩ => ⟨S50000, .f32⟩
  | .hbm, ⟨61, _⟩ => ⟨S1600000x1, .i32⟩
  | .hbm, ⟨62, _⟩ => ⟨S50000, .f32⟩
  | .hbm, ⟨63, _⟩ => ⟨S_, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S1600000x1, .i32⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x64, .f32⟩
  | .hbm, ⟨80, _⟩ => ⟨S50000x64, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x64, .f32⟩
  | .hbm, ⟨90, _⟩ => ⟨S_, .f32⟩
  | .hbm, ⟨91, _⟩ => ⟨S50000x64, .f32⟩
  | .hbm, ⟨92, _⟩ => ⟨S1600000x1, .i32⟩
  | .hbm, ⟨93, _⟩ => ⟨S50000x64, .f32⟩
  | .hbm, ⟨94, _⟩ => ⟨S_, .f32⟩
  | .hbm, ⟨95, _⟩ => ⟨S50000, .f32⟩
  | .hbm, ⟨96, _⟩ => ⟨S50000, .f32⟩
  | .hbm, ⟨97, _⟩ => ⟨S50000x1, .f32⟩
  | .hbm, ⟨98, _⟩ => ⟨S50000x64, .f32⟩
  | .hbm, ⟨99, _⟩ => ⟨S50000x64, .f32⟩
  | .hbm, ⟨100, _⟩ => ⟨S50000x16, .f32⟩
  | .hbm, ⟨101, _⟩ => ⟨S1x16, .f32⟩
  | .hbm, ⟨102, _⟩ => ⟨S50000x16, .f32⟩
  | .hbm, ⟨103, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_call4_v0 : Ref sig .tc := ⟨.hbm, 72, rfl⟩
abbrev main_call4_v1 : Ref sig .tc := ⟨.hbm, 73, rfl⟩
abbrev main_v42 : Ref sig .tc := ⟨.hbm, 74, rfl⟩
abbrev main_cst_13 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_14 : Ref sig .tc := ⟨.hbm, 81, rfl⟩
abbrev main_v48 : Ref sig .tc := ⟨.hbm, 82, rfl⟩
abbrev main_v49 : Ref sig .tc := ⟨.hbm, 83, rfl⟩
abbrev main_c_15 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_16 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_17 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x16_S50000x16_1_0_0_1_n_n_wf : DotDims.WF S50000x64 S64x16 S50000x16 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf

class Facts : Prop extends Facts₀ where

variable [Facts]
-- ==== Proof.Spec.lean ====
/-
  A two-layer graph convolution with symmetric degree normalisation, written once as functions of whole arrays
  over the extended reals. A node of degree `d` is weighted by `max(d, 1)^(-1/2)`. The first stage scales each
  node's feature row by the weight of its out-degree; a hidden layer takes an aggregated array, scales each row by
  the weight of the node's in-degree, multiplies by the layer's matrix, adds the bias, clamps at zero and scales by
  the out-degree weight again (ready for the next aggregation); the output layer scales by the in-degree weight,
  multiplies and adds the bias. The kernel's three launches compute these three functions block by block; the
  reference computes them on whole arrays, writing the weight as a power with exponent `-1/2` where the kernel
  takes a reciprocal square root: on `max(d, 1) ≥ 1` the two agree (`invSqrt_eq_hostPow`).
-/
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx

/-- An `r × c` array of extended reals. -/
abbrev Mat (r c : Nat) : Type := (⟨2, ![r, c]⟩ : Shape).Idx → EReal

/-- The row coordinate of an index of an `r × c` array. -/
abbrev row {r c : Nat} (i : (⟨2, ![r, c]⟩ : Shape).Idx) : Fin r := ⟨(i 0).val, idx2_lt0 i⟩
/-- The column coordinate of an index of an `r × c` array. -/
abbrev col {r c : Nat} (i : (⟨2, ![r, c]⟩ : Shape).Idx) : Fin c := ⟨(i 1).val, idx2_lt1 i⟩

/-- A vector as the one column of an `n × 1` array. -/
def colOf {n : Nat} (d : (⟨1, ![n]⟩ : Shape).Idx → EReal) : Mat n 1 := fun j => d (ix1 (row j))
/-- A vector as the one row of a `1 × n` array. -/
def rowOf {n : Nat} (b : (⟨1, ![n]⟩ : Shape).Idx → EReal) : Mat 1 n := fun j => b (ix1 (col j))

/-- The weight of a node of degree `d`: `max(d, 1)^(-1/2)`, as a reciprocal square root. -/
def invSqrt (d : EReal) : EReal := Ideal.rsqrt (max d 1)

/-- Every feature row scaled by the weight of its node's out-degree (a column array). -/
def prenorm (x : Mat 50000 128) (dout : Mat 50000 1) : Mat 50000 128 :=
  fun i => x i * invSqrt (dout (ix2 (row i) 0))

/-- The hidden layer on an aggregated array `a`: `relu((a · w_in) W + b) · w_out`, row weights `w_in`, `w_out` from the
    in- and out-degree columns. -/
def hidden (a : Mat 50000 128) (din dout : Mat 50000 1) (W : Mat 128 64) (b : Mat 1 64) : Mat 50000 64 :=
  fun i => max ((∑ k : Fin 128, (a (ix2 (row i) k) * invSqrt (din (ix2 (row i) 0))) * W (ix2 k (col i))) + b (ix2 0 (col i))) 0
    * invSqrt (dout (ix2 (row i) 0))

/-- The output layer on an aggregated array `a`: `(a · w_in) W + b`. -/
def output (a : Mat 50000 64) (din : Mat 50000 1) (W : Mat 64 16) (b : Mat 1 16) : Mat 50000 16 :=
  fun i => (∑ k : Fin 64, (a (ix2 (row i) k) * invSqrt (din (ix2 (row i) 0))) * W (ix2 k (col i))) + b (ix2 0 (col i))

/-- The f32 pattern `0xBF000000` is the real `-1/2`. -/
theorem ofBits_neg_half_f32 : Ideal.ofBits .f32 0xBF000000#32 = ((-(1 / 2) : ℝ) : EReal) := by
  simp [Ideal.ofBits, Ideal.ieee, -EReal.coe_mul, -EReal.coe_neg]; norm_num

/-- On an extended real that is at least one, the reciprocal square root is the power with exponent `-1/2`: for a
    real `r ≥ 1`, `(√r)⁻¹ = r^(-1/2)`; at `+∞` both are zero. -/
theorem rsqrt_eq_pow_of_one_le {z : EReal} (hz : 1 ≤ z) : Ideal.rsqrt z = Ideal.pow z ((-(1 / 2) : ℝ) : EReal) := by
  induction z using EReal.rec with
  | bot =>
    have h : (⊥ : EReal) < 1 := by exact_mod_cast EReal.bot_lt_coe (1 : ℝ)
    exact absurd hz (not_le.mpr h)
  | top =>
    show (0 : EReal) = if (0 : EReal) < ((-(1 / 2) : ℝ) : EReal) then ⊤ else if ((-(1 / 2) : ℝ) : EReal) = 0 then 1 else 0
    have h1 : ¬ (0 : EReal) < ((-(1 / 2) : ℝ) : EReal) := by
      rw [← EReal.coe_zero, EReal.coe_lt_coe_iff]; norm_num
    have h2 : ¬ ((-(1 / 2) : ℝ) : EReal) = 0 := by
      rw [← EReal.coe_zero, EReal.coe_eq_coe_iff]; norm_num
    rw [if_neg h1, if_neg h2]
  | coe r =>
    have hr : (1 : ℝ) ≤ r := by exact_mod_cast hz
    show (if r < 0 then (⊥ : EReal) else if r = 0 then ⊤ else ((Real.sqrt r)⁻¹ : ℝ)) = ((Real.rpow r (-(1 / 2)) : ℝ) : EReal)
    rw [if_neg (by linarith), if_neg (by linarith)]
    congr 1
    show (Real.sqrt r)⁻¹ = r ^ (-(1 / 2) : ℝ)
    rw [Real.rpow_neg (by linarith), Real.sqrt_eq_rpow]

/-- The node weight as the reference writes it: the power `-1/2` of `max(1, d)`, both literals as f32 patterns. -/
theorem invSqrt_eq_hostPow (d : EReal) :
    Ideal.pow (max (Ideal.ofBits .f32 0x3F800000#32) d) (Ideal.ofBits .f32 0xBF000000#32) = invSqrt d := by
  rw [Ideal.ofBits_one_f32, ofBits_neg_half_f32, max_comm, invSqrt]
  exact (rsqrt_eq_pow_of_one_le (le_max_right _ _)).symm

/-- The node weight as the kernel writes it: the reciprocal square root of `max(d, 1)`, the one an f32 pattern. -/
theorem invSqrt_eq_kernel (d : EReal) : Ideal.rsqrt (max d (Ideal.ofBits .f32 0x3F800000#32)) = invSqrt d := by
  rw [Ideal.ofBits_one_f32, invSqrt]

end Cert.Spec

end
-- ==== Proof.LibCols.lean ====
/-
  Two layout readings for column arrays: an `[a, 1]` column broadcast along a new minor axis, and a vector cast to
  a column.
-/
import Idealize.ShloMosaic.Lib.ValueIdx
import Idealize.ShloMosaic.Lib.Pipeline.Value
import Idealize.ShloMosaic.Lib.ValueLayout

namespace Cert.LibCols

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.LibCols
-- ==== Proof.Blocks0.lean ====
/-
  The first launch, read as one array. Grid point `t` stages rows `5000·t … 5000·t + 4999` of the features and of the
  out-degree column, multiplies every feature row by `rsqrt(max(deg, 1))` of its node and writes the block back to
  the same rows of the result; the ten blocks tile the 50000 rows, so the result array is `Spec.prenorm` of the two
  arrays as the launch finds them.
-/
import proofs.«173481_j2284922601619_1_alg».proof.Proof.Gen.KernelIdeal.Frame
import proofs.«173481_j2284922601619_1_alg».proof.Proof.Spec
import proofs.«173481_j2284922601619_1_alg».proof.Proof.LibCols
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at row `p`, column `q` of the block: the feature times its row's weight. -/
theorem pay0_apply (d : Vec Ideal S5000x1 .f32) (x : Vec Ideal S5000x128 .f32) (p : Fin 5000) (q : Fin 128) :
    k0_pay1 d x (ix2 p q) = x (ix2 p q) * Spec.invSqrt (d (ix2 p 0)) := by
  unfold k0_pay1
  rw [mulf_apply, LibCols.broadcastTo_a1_ab_apply, shapeCast_self]
  show x (ix2 p q) * Ideal.rsqrt (max (d (ix2 p 0)) (Ideal.ofBits .f32 0x3F800000#32)) = _
  rw [Spec.invSqrt_eq_kernel]

/-- One stored element against the whole-array function: if the block's feature at `j` is the array's at `i` and the
    block's degree in `j`'s row is the column's in `i`'s row, the stored value at `j` is `Spec.prenorm` at `i`. -/
theorem point0 (dB : Vec Ideal S5000x1 .f32) (xB : Vec Ideal S5000x128 .f32) (X : Spec.Mat 50000 128) (D : Spec.Mat 50000 1)
    (j : S5000x128.Idx) (i : S50000x128.Idx) (hx : xB j = X i)
    (hd : dB (ix2 (Spec.row j) 0) = D (ix2 (Spec.row i) 0)) : k0_pay1 dB xB j = Spec.prenorm X D i := by
  have hj : j = ix2 (Spec.row j) (Spec.col j) := eq_ix2 j
  rw [hj, pay0_apply, ← hj, hx, hd]
  rfl

/-- The printed index maps over the grid: every window of this launch is at block row `t`, block column `0`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `Spec.prenorm` of the two arrays as the launch finds them. -/
theorem flushed0 (c : Dev nD) (t : Fin cfg0.N) :
    (dat0 V c).flushed 2 t = ((cfg0.win 2).blk t).view.read (Elt Ideal) (Spec.prenorm (V c main_arg0) (V c main_v4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S5000x1) hz]
  obtain ⟨e0, e1, e2, e3, e4, e5⟩ := idx_facts0 t
  funext j
  show k0_pay1 (iblk0 V c 1 t) (iblk0 V c 0 t) j = Spec.prenorm (V c main_arg0) (V c main_v4) (((cfg0.win 2).blk t).view.emb j)
  refine point0 _ _ _ _ j _ ?_ ?_
  · show V c main_arg0 (((cfg0.win 0).blk t).view.emb j) = V c main_arg0 (((cfg0.win 2).blk t).view.emb j)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  · show V c main_v4 (((cfg0.win 1).blk t).view.emb (ix2 (Spec.row j) 0)) = V c main_v4 (ix2 (Spec.row (((cfg0.win 2).blk t).view.emb j)) 0)
    refine congrArg (V c main_v4) (funext fun a => Fin.ext ?_)
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v9).slice (win0_2.rect t)).set ↔ _
  rw [View.set_slice_whole, Rect.mem_set_unit]
  exact Iff.rfl

/-- Every index of the result array is in the block of the point that owns its row: point `⌊row / 5000⌋`. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := rfl
  let t : Fin cfg0.N := ⟨(i 0).val / 5000, by rw [hN]; omega⟩
  obtain ⟨_, _, _, _, e4, e5⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE FIRST LAUNCH'S RESULT ARRAY: every feature row scaled by its node's out-degree weight. -/
theorem array0 (c : Dev nD) : (dat0 V c).arrAt 2 cfg0.N = Spec.prenorm (V c main_arg0) (V c main_v4) :=
  (dat0 V c).arrAt_eq_of_cover 2 _ (fun t _ => flushed0 V c t) cover0

end Cert.KernelIdeal.Blocks

end
-- ==== Proof.Blocks1.lean ====
/-
  The second launch, read as one array. Grid point `t` stages rows `5000·t … 5000·t + 4999` of the aggregated array and of the two
  degree columns, and the whole weight matrix and bias row; it scales each row by the in-degree weight, multiplies by the
  matrix (a sum over the 128 columns), adds the bias, clamps at zero, scales by the out-degree weight and writes the block
  back to the same rows; the ten blocks tile the 50000 rows, so the result array is `Spec.hidden` of the arrays as the
  launch finds them.
-/
import proofs.«173481_j2284922601619_1_alg».proof.Proof.Gen.KernelIdeal.Frame
import proofs.«173481_j2284922601619_1_alg».proof.Proof.Spec
import proofs.«173481_j2284922601619_1_alg».proof.Proof.LibCols
import proofs.«173481_j2284922601619_1_alg».proof.Proof.Blocks0
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The matrix product's left operand is read, on its row axis, at the output's row; -/
theorem lhs_dot1_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- on its column axis, at the summation index; -/
theorem lhs_dot1_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- the right operand, on its row axis, at the summation index; -/
theorem rhs_dot1_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- on its column axis, at the output's column. -/
theorem rhs_dot1_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matrix product into a zero accumulator, at row `p`, column `q`: the sum over the 128 shared coordinates of the
    products of the left operand's row `p` and the right operand's column `q`. -/
theorem matmul1_apply (x : FVec Ideal S5000x128 .bf16) (w : FVec Ideal S128x64 .bf16) (p : Fin 5000) (q : Fin 64) :
    matmul dot_S5000x128_S128x64_S5000x64_1_0_0_1_n_n none x w (constant (F := Ideal) S5000x64 .f32 0x00000000#32) (ix2 p q)
      = ∑ k : Fin 128, x (ix2 p k) * w (ix2 k q) := by
  show FloatOps.matmul dot_S5000x128_S128x64_S5000x64_1_0_0_1_n_n none x w (constant (F := Ideal) S5000x64 .f32 0x00000000#32) (ix2 p q) = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_dot1_0 _ _
    | ⟨1, _⟩ => exact (lhs_dot1_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_dot1_0 _ _).trans hk
    | ⟨1, _⟩ => exact rhs_dot1_1 _ _)
  rw [el, er]

/-- The body's one stored value at row `p`, column `q` of the block: the row of the aggregated block scaled by its
    in-degree weight, times column `q` of the matrix, plus the bias at `q`, clamped at zero, times the out-degree weight. -/
theorem pay1_apply (din : Vec Ideal S5000x1 .f32) (a : Vec Ideal S5000x128 .f32) (W : Vec Ideal S128x64 .f32) (b : Vec Ideal S1x64 .f32)
    (dout : Vec Ideal S5000x1 .f32) (p : Fin 5000) (q : Fin 64) :
    k1_pay1 din a W b dout (ix2 p q)
      = max ((∑ k : Fin 128, (a (ix2 p k) * Spec.invSqrt (din (ix2 p 0))) * W (ix2 k q)) + b (ix2 0 q)) 0 * Spec.invSqrt (dout (ix2 p 0)) := by
  unfold k1_pay1
  rw [mulf_apply, LibCols.broadcastTo_a1_ab_apply, maximumf_apply, addf_apply, broadcastTo_1b_ab_apply, matmul1_apply,
    shapeCast_self, shapeCast_self, shapeCast_self, shapeCast_self]
  simp only [truncf_apply, mulf_apply, LibCols.broadcastTo_a1_ab_apply]
  show max ((∑ k : Fin 128, (a (ix2 p k) * Ideal.rsqrt (max (din (ix2 p 0)) (Ideal.ofBits .f32 0x3F800000#32))) * W (ix2 k q)) + b (ix2 0 q))
      (Ideal.ofBits .f32 0x00000000#32) * Ideal.rsqrt (max (dout (ix2 p 0)) (Ideal.ofBits .f32 0x3F800000#32)) = _
  rw [Spec.invSqrt_eq_kernel, Spec.invSqrt_eq_kernel, Ideal.ofBits_zero_f32]

/-- One stored element against the whole-array function: if, in `j`'s row and column, the block's aggregated row, the
    block's two degrees, the matrix column and the bias are the arrays' in `i`'s row and column, the stored value at `j`
    is `Spec.hidden` at `i`. -/
theorem point1 (dinB : Vec Ideal S5000x1 .f32) (aB : Vec Ideal S5000x128 .f32) (WB : Vec Ideal S128x64 .f32) (bB : Vec Ideal S1x64 .f32)
    (doutB : Vec Ideal S5000x1 .f32) (A : Spec.Mat 50000 128) (Din Dout : Spec.Mat 50000 1) (W : Spec.Mat 128 64) (B : Spec.Mat 1 64)
    (j : S5000x64.Idx) (i : S50000x64.Idx)
    (ha : ∀ k : Fin 128, aB (ix2 (Spec.row j) k) = A (ix2 (Spec.row i) k))
    (hdin : dinB (ix2 (Spec.row j) 0) = Din (ix2 (Spec.row i) 0))
    (hW : ∀ k : Fin 128, WB (ix2 k (Spec.col j)) = W (ix2 k (Spec.col i)))
    (hb : bB (ix2 0 (Spec.col j)) = B (ix2 0 (Spec.col i)))
    (hdout : doutB (ix2 (Spec.row j) 0) = Dout (ix2 (Spec.row i) 0)) :
    k1_pay1 dinB aB WB bB doutB j = Spec.hidden A Din Dout W B i := by
  have hj : j = ix2 (Spec.row j) (Spec.col j) := eq_ix2 j
  rw [hj, pay1_apply, hdin, hb, hdout]
  simp only [ha, hW]
  rfl

/-- The printed index maps over the grid: the aggregated block, the two degree blocks and the result block are at block
    row `t`, block column `0`; the matrix and the bias row are whole, at block `(0, 0)`, at every point. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `Spec.hidden` of the five arrays as the launch finds them. -/
theorem flushed1 (c : Dev nD) (t : Fin cfg1.N) :
    (dat1 V c).flushed 5 t = ((cfg1.win 5).blk t).view.read (Elt Ideal)
      (Spec.hidden (V c main_v19) (V c main_v8) (V c main_v4) (V c main_arg3) (V c main_v20)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S128x64) hz,
    View.ld_unit_zero (S := S1x64) hz]
  obtain ⟨e0, e1, e2, e3, e4, e5, e6, e7, e8, e9, e10, e11⟩ := idx_facts1 t
  funext j
  show k1_pay1 (iblk1 V c 1 t) (iblk1 V c 0 t) (iblk1 V c 3 t) (iblk1 V c 4 t) (iblk1 V c 2 t) j
    = Spec.hidden (V c main_v19) (V c main_v8) (V c main_v4) (V c main_arg3) (V c main_v20) (((cfg1.win 5).blk t).view.emb j)
  refine point1 _ _ _ _ _ _ _ _ _ _ j _ (fun k => ?_) ?_ (fun k => ?_) ?_ ?_
  · show V c main_v19 (((cfg1.win 0).blk t).view.emb (ix2 (Spec.row j) k))
      = V c main_v19 (ix2 (Spec.row (((cfg1.win 5).blk t).view.emb j)) k)
    refine congrArg (V c main_v19) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · show V c main_v8 (((cfg1.win 1).blk t).view.emb (ix2 (Spec.row j) 0))
      = V c main_v8 (ix2 (Spec.row (((cfg1.win 5).blk t).view.emb j)) 0)
    refine congrArg (V c main_v8) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 1 + 1 * 0 = 0; omega
  · show V c main_arg3 (((cfg1.win 3).blk t).view.emb (ix2 k (Spec.col j)))
      = V c main_arg3 (ix2 k (Spec.col (((cfg1.win 5).blk t).view.emb j)))
    refine congrArg (V c main_arg3) (funext fun a => Fin.ext ?_)
    match a with
    | ⟨0, _⟩ => show win1_3.index t (0 : Fin 2) * 128 + 1 * k.val = k.val; omega
    | ⟨1, _⟩ => show win1_3.index t (1 : Fin 2) * 64 + 1 * (j 1).val = win1_5.index t (1 : Fin 2) * 64 + 1 * (j 1).val; omega
  · show V c main_v20 (((cfg1.win 4).blk t).view.emb (ix2 0 (Spec.col j)))
      = V c main_v20 (ix2 0 (Spec.col (((cfg1.win 5).blk t).view.emb j)))
    refine congrArg (V c main_v20) (funext fun a => Fin.ext ?_)
    match a with
    | ⟨0, _⟩ => show win1_4.index t (0 : Fin 2) * 1 + 1 * 0 = 0; omega
    | ⟨1, _⟩ => show win1_4.index t (1 : Fin 2) * 64 + 1 * (j 1).val = win1_5.index t (1 : Fin 2) * 64 + 1 * (j 1).val; omega
  · show V c main_v4 (((cfg1.win 2).blk t).view.emb (ix2 (Spec.row j) 0))
      = V c main_v4 (ix2 (Spec.row (((cfg1.win 5).blk t).view.emb j)) 0)
    refine congrArg (V c main_v4) (funext fun a => Fin.ext ?_)
    match a with
    | ⟨0, _⟩ => show win1_2.index t (0 : Fin 2) * 5000 + 1 * (j 0).val = win1_5.index t (0 : Fin 2) * 5000 + 1 * (j 0).val; omega
    | ⟨1, _⟩ => show win1_2.index t (1 : Fin 2) * 1 + 1 * 0 = 0; omega

/-- An index of the result array is in point `t`'s block iff each coordinate is in the block's range on its axis. -/
theorem mem_blk1 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v21).slice (win1_5.rect t)).set ↔ _
  rw [View.set_slice_whole, Rect.mem_set_unit]
  exact Iff.rfl

/-- Every index of the result array is in the block of the point that owns its row: point `⌊row / 5000⌋`. -/
theorem cover1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := rfl
  let t : Fin cfg1.N := ⟨(i 0).val / 5000, by rw [hN]; omega⟩
  obtain ⟨_, _, _, _, _, _, _, _, _, _, e10, e11⟩ := idx_facts1 t
  have ht : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE SECOND LAUNCH'S RESULT ARRAY: the hidden layer of the aggregated array, row weights from the in- and out-degree columns. -/
theorem array1 (c : Dev nD) : (dat1 V c).arrAt 5 cfg1.N
    = Spec.hidden (V c main_v19) (V c main_v8) (V c main_v4) (V c main_arg3) (V c main_v20) :=
  (dat1 V c).arrAt_eq_of_cover 5 _ (fun t _ => flushed1 V c t) cover1

end Cert.KernelIdeal.Blocks

end
-- ==== Proof.Blocks2.lean ====
/-
  The third launch, read as one array. Grid point `t` stages rows `5000·t … 5000·t + 4999` of the aggregated array and of the
  in-degree column, and the whole weight matrix and bias row; it scales each row by the in-degree weight, multiplies by the
  matrix (a sum over the 64 columns), adds the bias and writes the block back to the same rows; the ten blocks tile the
  50000 rows, so the result array is `Spec.output` of the arrays as the launch finds them.
-/
import proofs.«173481_j2284922601619_1_alg».proof.Proof.Gen.KernelIdeal.Frame
import proofs.«173481_j2284922601619_1_alg».proof.Proof.Spec
import proofs.«173481_j2284922601619_1_alg».proof.Proof.LibCols
import proofs.«173481_j2284922601619_1_alg».proof.Proof.Blocks0
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The product's left operand is read at the output's row: axis 0 is not contracted. -/
theorem lhs2_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
/-- The left operand's axis 1 is the contracted one. -/
theorem lhs2_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
/-- The right operand's axis 0 is the contracted one. -/
theorem rhs2_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
/-- The right operand is read at the output's column: axis 1 is not contracted. -/
theorem rhs2_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- The block product into the zero splat, at row `p`, column `q`: the sum over the 64 contracted columns. -/
theorem mm2_apply (x : FVec Ideal S5000x64 .bf16) (w : FVec Ideal S64x16 .bf16) (p : Fin 5000) (q : Fin 16) :
    matmul dot_S5000x64_S64x16_S5000x16_1_0_0_1_n_n none x w (constant (F := Ideal) S5000x16 .f32 0x00000000#32) (ix2 p q)
      = ∑ k : Fin 64, x (ix2 p k) * w (ix2 k q) := by
  show FloatOps.matmul dot_S5000x64_S64x16_S5000x16_1_0_0_1_n_n none x w (constant (F := Ideal) S5000x16 .f32 0x00000000#32) (ix2 p q) = _
  rw [Ideal.matmul_constant_zero_apply, ← Equiv.sum_comp (ValueIdx.contrEquiv1 dot_S5000x64_S64x16_S5000x16_1_0_0_1_n_n 64 rfl rfl).symm]
  refine Finset.sum_congr rfl fun k _ => ?_
  have hk := ValueIdx.contrEquiv1_symm_val dot_S5000x64_S64x16_S5000x16_1_0_0_1_n_n 64 rfl rfl k
  have el : dot_S5000x64_S64x16_S5000x16_1_0_0_1_n_n.lhsIdx (ix2 p q) ((ValueIdx.contrEquiv1 dot_S5000x64_S64x16_S5000x16_1_0_0_1_n_n 64 rfl rfl).symm k) = ix2 p k := funext fun a => Fin.ext (by
    match a with
    | ⟨0, _⟩ => exact lhs2_0 _ _
    | ⟨1, _⟩ => exact (lhs2_1 _ _).trans hk)
  have er : dot_S5000x64_S64x16_S5000x16_1_0_0_1_n_n.rhsIdx (ix2 p q) ((ValueIdx.contrEquiv1 dot_S5000x64_S64x16_S5000x16_1_0_0_1_n_n 64 rfl rfl).symm k) = ix2 k q := funext fun a => Fin.ext (by
    match a with
    | ⟨0, _⟩ => exact (rhs2_0 _ _).trans hk
    | ⟨1, _⟩ => exact rhs2_1 _ _)
  rw [el, er]

/-- The body's one stored value at row `p`, column `q` of the block: the weighted row times the matrix's column, plus the bias. -/
theorem pay2_apply (d : Vec Ideal S5000x1 .f32) (a : Vec Ideal S5000x64 .f32) (W : Vec Ideal S64x16 .f32) (b : Vec Ideal S1x16 .f32)
    (p : Fin 5000) (q : Fin 16) :
    k2_pay1 d a W b (ix2 p q) = (∑ k : Fin 64, (a (ix2 p k) * Spec.invSqrt (d (ix2 p 0))) * W (ix2 k q)) + b (ix2 0 q) := by
  unfold k2_pay1
  rw [addf_apply, mm2_apply, broadcastTo_1b_ab_apply, shapeCast_self b, shapeCast_self a, shapeCast_self d]
  congr 1
  refine Finset.sum_congr rfl fun k _ => ?_
  rw [truncf_apply, truncf_apply, mulf_apply, LibCols.broadcastTo_a1_ab_apply]
  show a (ix2 p k) * Ideal.rsqrt (max (d (ix2 p 0)) (Ideal.ofBits .f32 0x3F800000#32)) * W (ix2 k q) = _
  rw [Spec.invSqrt_eq_kernel]

/-- One stored element against the whole-array function: if the block's row of `j` is the array's row of `i`, the block's
    degree in `j`'s row is the column's in `i`'s row, and the matrix's and the bias's entries in `j`'s column are those in
    `i`'s column, the stored value at `j` is `Spec.output` at `i`. -/
theorem point2 (dB : Vec Ideal S5000x1 .f32) (aB : Vec Ideal S5000x64 .f32) (WB : Vec Ideal S64x16 .f32) (bB : Vec Ideal S1x16 .f32)
    (A : Spec.Mat 50000 64) (Dn : Spec.Mat 50000 1) (W : Spec.Mat 64 16) (B : Spec.Mat 1 16)
    (j : S5000x16.Idx) (i : S50000x16.Idx)
    (ha : ∀ k : Fin 64, aB (ix2 (Spec.row j) k) = A (ix2 (Spec.row i) k))
    (hd : dB (ix2 (Spec.row j) 0) = Dn (ix2 (Spec.row i) 0))
    (hW : ∀ k : Fin 64, WB (ix2 k (Spec.col j)) = W (ix2 k (Spec.col i)))
    (hb : bB (ix2 0 (Spec.col j)) = B (ix2 0 (Spec.col i))) :
    k2_pay1 dB aB WB bB j = Spec.output A Dn W B i := by
  have hj : j = ix2 (Spec.row j) (Spec.col j) := eq_ix2 j
  rw [hj, pay2_apply, hd, hb]
  show _ = (∑ k : Fin 64, (A (ix2 (Spec.row i) k) * Spec.invSqrt (Dn (ix2 (Spec.row i) 0))) * W (ix2 k (Spec.col i))) + B (ix2 0 (Spec.col i))
  congr 1
  exact Finset.sum_congr rfl fun k _ => by rw [ha, hW]

/-- The printed index maps over the grid: the aggregated block, the degree block and the result block are at block row `t`,
    block column `0`; the matrix and the bias row are whole, at block `(0, 0)`, at every point. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of `Spec.output` of the four arrays as the launch finds them. -/
theorem flushed2 (c : Dev nD) (t : Fin cfg2.N) :
    (dat2 V c).flushed 4 t = ((cfg2.win 4).blk t).view.read (Elt Ideal)
      (Spec.output (V c main_v31) (V c main_v8) (V c main_arg5) (V c main_v32)) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x1) hz, View.ld_unit_zero (S := S64x16) hz,
    View.ld_unit_zero (S := S1x16) hz]
  obtain ⟨e0, e1, e2, e3, e4, e5, e6, e7, e8, e9⟩ := idx_facts2 t
  funext j
  show k2_pay1 (iblk2 V c 1 t) (iblk2 V c 0 t) (iblk2 V c 2 t) (iblk2 V c 3 t) j
    = Spec.output (V c main_v31) (V c main_v8) (V c main_arg5) (V c main_v32) (((cfg2.win 4).blk t).view.emb j)
  refine point2 _ _ _ _ _ _ _ _ j _ (fun k => ?_) ?_ (fun k => ?_) ?_
  · show V c main_v31 (((cfg2.win 0).blk t).view.emb (ix2 (Spec.row j) k))
      = V c main_v31 (ix2 (Spec.row (((cfg2.win 4).blk t).view.emb j)) k)
    refine congrArg (V c main_v31) (funext fun a => Fin.ext ?_)
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 64 + 1 * k.val = k.val; omega
  · show V c main_v8 (((cfg2.win 1).blk t).view.emb (ix2 (Spec.row j) 0))
      = V c main_v8 (ix2 (Spec.row (((cfg2.win 4).blk t).view.emb j)) 0)
    refine congrArg (V c main_v8) (funext fun a => Fin.ext ?_)
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 1 + 1 * 0 = 0; omega
  · show V c main_arg5 (((cfg2.win 2).blk t).view.emb (ix2 k (Spec.col j)))
      = V c main_arg5 (ix2 k (Spec.col (((cfg2.win 4).blk t).view.emb j)))
    refine congrArg (V c main_arg5) (funext fun a => Fin.ext ?_)
    match a with
    | ⟨0, _⟩ => show win2_2.index t (0 : Fin 2) * 64 + 1 * k.val = k.val; omega
    | ⟨1, _⟩ => show win2_2.index t (1 : Fin 2) * 16 + 1 * (j 1).val = win2_4.index t (1 : Fin 2) * 16 + 1 * (j 1).val; omega
  · show V c main_v32 (((cfg2.win 3).blk t).view.emb (ix2 0 (Spec.col j)))
      = V c main_v32 (ix2 0 (Spec.col (((cfg2.win 4).blk t).view.emb j)))
    refine congrArg (V c main_v32) (funext fun a => Fin.ext ?_)
    match a with
    | ⟨0, _⟩ => show win2_3.index t (0 : Fin 2) * 1 + 1 * 0 = 0; omega
    | ⟨1, _⟩ => show win2_3.index t (1 : Fin 2) * 16 + 1 * (j 1).val = win2_4.index t (1 : Fin 2) * 16 + 1 * (j 1).val; omega

/-- An index of the result array is in point `t`'s block iff each coordinate is in the block's range on its axis. -/
theorem mem_blk2 (t : Fin cfg2.N) (i : S50000x16.Idx) :
    i ∈ ((cfg2.win 4).blk t).view.set ↔ ∀ a : Fin 2, win2_4.index t a * S5000x16.size a ≤ (i a).val ∧ (i a).val < win2_4.index t a * S5000x16.size a + S5000x16.size a := by
  show i ∈ ((View.whole main_v33).slice (win2_4.rect t)).set ↔ _
  rw [View.set_slice_whole, Rect.mem_set_unit]
  exact Iff.rfl

/-- Every index of the result array is in the block of the point that owns its row: point `⌊row / 5000⌋`. -/
theorem cover2 (i : S50000x16.Idx) : ∃ t : Fin cfg2.N, (cfg2.win 4).flush t = true ∧ i ∈ ((cfg2.win 4).blk t).view.set := by
  have hi0 : (i 0).val < 50000 := (i 0).isLt
  have hi1 : (i 1).val < 16 := (i 1).isLt
  have hN : cfg2.N = 10 := rfl
  let t : Fin cfg2.N := ⟨(i 0).val / 5000, by rw [hN]; omega⟩
  obtain ⟨_, _, _, _, _, _, _, _, e8, e9⟩ := idx_facts2 t
  have ht : t.val = (i 0).val / 5000 := rfl
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 16 ≤ (i 1).val ∧ (i 1).val < win2_4.index t (1 : Fin 2) * 16 + 16; omega

/-- THE THIRD LAUNCH'S RESULT ARRAY: the output layer of the aggregated array, row weights from the in-degree column. -/
theorem array2 (c : Dev nD) : (dat2 V c).arrAt 4 cfg2.N
    = Spec.output (V c main_v31) (V c main_v8) (V c main_arg5) (V c main_v32) :=
  (dat2 V c).arrAt_eq_of_cover 4 _ (fun t _ => flushed2 V c t) cover2

end Cert.KernelIdeal.Blocks

end
-- ==== Proof.HostChain.lean ====
/-
  The host's irregular steps of the kernel's program, named: the degree count (ones added into a zero vector at the
  listed nodes), the index column of the edge sources (a negative entry wrapped by the node count), and one
  aggregation (the rows of an array at the edge sources, added into a zero array at the edge targets) at the two
  widths. They are carried as whole functions; nothing reads them at an index.
-/
import proofs.«173481_j2284922601619_1_alg».proof.KernelIdeal
import proofs.«173481_j2284922601619_1_alg».proof.Proof.Gen.KernelIdeal
import Idealize.ShloMosaic.PureOps.Ideal

noncomputable section

namespace Cert.KernelIdeal.Fold

open Cert.KernelIdeal Cert.KernelIdeal.Gen Idealize.ShloMosaic Idealize.ShloMosaic.TcCoe

/-- The degree vector of an edge-endpoint list: ones added into a zero vector at the listed nodes. -/
def deg (idx : IVec S1600000 32) : FVec Ideal S50000 .f32 :=
  Host.scatterAdd scatter_S50000_S1600000x1_S1600000_n_0_0_1
    (broadcastInDim S50000 ![] bcast_S_S50000 (constant S_ .f32 0x00000000#32))
    (broadcastInDim S1600000x1 ![0] bcast_S1600000_S1600000x1_0 idx)
    (broadcastInDim S1600000 ![] bcast_S_S1600000 (constant S_ .f32 0x3F800000#32))

/-- The edge sources with negative entries wrapped by the node count, as the gather's index column. -/
def srcCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- One aggregation at width 128: the rows of `h` at the edge sources, added into a zero array at the edge targets. -/
def agg128 (h : FVec Ideal S50000x128 .f32) (src dst : IVec S1600000 32) : FVec Ideal S50000x128 .f32 :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 dst)
    (Host.gather gather_S50000x128_S1600000x1_S1600000x128_1_0_n_n_0_1_1128 h (srcCol src))

/-- One aggregation at width 64. -/
def agg64 (h : FVec Ideal S50000x64 .f32) (src dst : IVec S1600000 32) : FVec Ideal S50000x64 .f32 :=
  Host.scatterAdd scatter_S50000x64_S1600000x1_S1600000x64_1_0_0_1
    (broadcastInDim S50000x64 ![] bcast_S_S50000x64 (constant S_ .f32 0x00000000#32))
    (broadcastInDim S1600000x1 ![0] bcast_S1600000_S1600000x1_0 dst)
    (Host.gather gather_S50000x64_S1600000x1_S1600000x64_1_0_n_n_0_1_164 h (srcCol src))

end Cert.KernelIdeal.Fold

end
-- ==== Proof.KernelFold.lean ====
/-
  The idealized kernel's result, read back through its program. Between the launches the host gathers rows at the
  edge sources and adds them into the edge targets; before the first launch it counts the two degrees. Walking
  the buffer contents from the launch memory through each host stretch and each launch's write-backs, the result
  array is the output layer of the aggregated hidden layer of the aggregated scaled features, as functions of the
  seven arguments.
-/
import proofs.«173481_j2284922601619_1_alg».proof.Proof.Gen.KernelIdeal.Frame
import proofs.«173481_j2284922601619_1_alg».proof.Proof.Spec
import proofs.«173481_j2284922601619_1_alg».proof.Proof.LibCols
import proofs.«173481_j2284922601619_1_alg».proof.Proof.Blocks0
import proofs.«173481_j2284922601619_1_alg».proof.Proof.Blocks1
import proofs.«173481_j2284922601619_1_alg».proof.Proof.Blocks2
import proofs.«173481_j2284922601619_1_alg».proof.Proof.HostChain
import Idealize.ShloMosaic.Lib.StableHlo.Run
import Idealize.ShloMosaic.Lib.ValueLayout

set_option maxRecDepth 16384

noncomputable section

namespace Cert.KernelIdeal.Fold

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)

/-- No operation of a host stretch writes the named buffer. -/
macro "not_written_by " ops:ident : tactic =>
  `(tactic| exact List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

variable (m : (ℓ : Loc nD τ sig) → Buf (Elt Ideal) ℓ) (ρ : Dev nD → PrngReg)

/-- A vector cast to a column is `Spec.colOf` of it. -/
theorem shapeCast_col (d : FVec Ideal S50000 .f32) : shapeCast S50000x1 d shapeCasts_S50000_S50000x1 = Spec.colOf d := by
  funext j
  rw [eq_ix2 j]
  exact LibCols.shapeCast_a_a1_apply d _ _ _

/-- A 64-vector cast to a row is `Spec.rowOf` of it. -/
theorem shapeCast_row64 (b : FVec Ideal S64 .f32) : shapeCast S1x64 b shapeCasts_S64_S1x64 = Spec.rowOf b := by
  funext j
  rw [eq_ix2 j]
  exact shapeCast_a_1a_apply b _ _ _

/-- A 16-vector cast to a row is `Spec.rowOf` of it. -/
theorem shapeCast_row16 (b : FVec Ideal S16 .f32) : shapeCast S1x16 b shapeCasts_S16_S1x16 = Spec.rowOf b := by
  funext j
  rw [eq_ix2 j]
  exact shapeCast_a_1a_apply b _ _ _

/-! ## Before the first launch: the two degree columns; the arguments as launched -/

theorem W1_v4 (c : Dev nD) : W1 m ρ c (Proc.devRef .tc main_v4)
    = Spec.colOf (deg (m ((c : Thread nD τ).loc main_arg1))) := by
  rw [← shapeCast_col]
  show StableHlo.after hostOps0 (W0 m ρ c) (Proc.devRef .tc main_v4) = _
  after_results
  rfl

theorem W1_v8 (c : Dev nD) : W1 m ρ c (Proc.devRef .tc main_v8)
    = Spec.colOf (deg (m ((c : Thread nD τ).loc main_arg2))) := by
  rw [← shapeCast_col]
  show StableHlo.after hostOps0 (W0 m ρ c) (Proc.devRef .tc main_v8) = _
  after_results
  rfl

theorem W1_arg0 (c : Dev nD) : W1 m ρ c (Proc.devRef .tc main_arg0) = m ((c : Thread nD τ).loc main_arg0) :=
  StableHlo.after_of_forall_not_mem (b := Proc.devRef .tc main_arg0) _ _ (by not_written_by hostOps0)
theorem W1_arg1 (c : Dev nD) : W1 m ρ c (Proc.devRef .tc main_arg1) = m ((c : Thread nD τ).loc main_arg1) :=
  StableHlo.after_of_forall_not_mem (b := Proc.devRef .tc main_arg1) _ _ (by not_written_by hostOps0)
theorem W1_arg2 (c : Dev nD) : W1 m ρ c (Proc.devRef .tc main_arg2) = m ((c : Thread nD τ).loc main_arg2) :=
  StableHlo.after_of_forall_not_mem (b := Proc.devRef .tc main_arg2) _ _ (by not_written_by hostOps0)
theorem W1_arg3 (c : Dev nD) : W1 m ρ c (Proc.devRef .tc main_arg3) = m ((c : Thread nD τ).loc main_arg3) :=
  StableHlo.after_of_forall_not_mem (b := Proc.devRef .tc main_arg3) _ _ (by not_written_by hostOps0)
theorem W1_arg4 (c : Dev nD) : W1 m ρ c (Proc.devRef .tc main_arg4) = m ((c : Thread nD τ).loc main_arg4) :=
  StableHlo.after_of_forall_not_mem (b := Proc.devRef .tc main_arg4) _ _ (by not_written_by hostOps0)
theorem W1_arg5 (c : Dev nD) : W1 m ρ c (Proc.devRef .tc main_arg5) = m ((c : Thread nD τ).loc main_arg5) :=
  StableHlo.after_of_forall_not_mem (b := Proc.devRef .tc main_arg5) _ _ (by not_written_by hostOps0)
theorem W1_arg6 (c : Dev nD) : W1 m ρ c (Proc.devRef .tc main_arg6) = m ((c : Thread nD τ).loc main_arg6) :=
  StableHlo.after_of_forall_not_mem (b := Proc.devRef .tc main_arg6) _ _ (by not_written_by hostOps0)

/-! ## After the first launch: the scaled features; everything else as before it -/

theorem W2_v9 (c : Dev nD) : W2 m ρ c (Proc.devRef .tc main_v9)
    = Spec.prenorm (m ((c : Thread nD τ).loc main_arg0)) (Spec.colOf (deg (m ((c : Thread nD τ).loc main_arg1)))) := by
  refine (W2_arr m ρ c 2).trans ((Blocks.array0 (V1 m ρ) c).trans ?_)
  show Spec.prenorm (W1 m ρ c (Proc.devRef .tc main_arg0)) (W1 m ρ c (Proc.devRef .tc main_v4)) = _
  rw [W1_arg0, W1_v4]

theorem W2_v4 (c : Dev nD) : W2 m ρ c (Proc.devRef .tc main_v4) = Spec.colOf (deg (m ((c : Thread nD τ).loc main_arg1))) :=
  ((W2_arr m ρ c 1).trans (((dat0 (V1 m ρ) c).arrAt_in 1 rfl _).trans (A_eq0 (V1 m ρ) c 1))).trans (W1_v4 m ρ c)
theorem W2_v8 (c : Dev nD) : W2 m ρ c (Proc.devRef .tc main_v8) = Spec.colOf (deg (m ((c : Thread nD τ).loc main_arg2))) :=
  (W2_of_ne m ρ c main_v8 (by decide)).trans (W1_v8 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)

/-! ## Before the second launch: the first aggregation and the bias row -/

theorem W3_v19 (c : Dev nD) : W3 m ρ c (Proc.devRef .tc main_v19)
    = agg128 (Spec.prenorm (m ((c : Thread nD τ).loc main_arg0)) (Spec.colOf (deg (m ((c : Thread nD τ).loc main_arg1)))))
        (m ((c : Thread nD τ).loc main_arg1)) (m ((c : Thread nD τ).loc main_arg2)) := by
  rw [← W2_v9 m ρ c, ← W2_arg1 m ρ c, ← W2_arg2 m ρ c]
  show StableHlo.after hostOps1 (W2 m ρ c) (Proc.devRef .tc main_v19) = _
  after_results
  rfl

theorem W3_v20 (c : Dev nD) : W3 m ρ c (Proc.devRef .tc main_v20) = Spec.rowOf (m ((c : Thread nD τ).loc main_arg4)) := by
  rw [← shapeCast_row64, ← W2_arg4 m ρ c]
  show StableHlo.after hostOps1 (W2 m ρ c) (Proc.devRef .tc main_v20) = _
  after_results
  rfl

theorem W3_v8 (c : Dev nD) : W3 m ρ c (Proc.devRef .tc main_v8) = Spec.colOf (deg (m ((c : Thread nD τ).loc main_arg2))) :=
  (StableHlo.after_of_forall_not_mem (b := Proc.devRef .tc main_v8) _ _ (by not_written_by hostOps1)).trans (W2_v8 m ρ c)
theorem W3_v4 (c : Dev nD) : W3 m ρ c (Proc.devRef .tc main_v4) = Spec.colOf (deg (m ((c : Thread nD τ).loc main_arg1))) :=
  (StableHlo.after_of_forall_not_mem (b := Proc.devRef .tc main_v4) _ _ (by not_written_by hostOps1)).trans (W2_v4 m ρ c)
theorem W3_arg1 (c : Dev nD) : W3 m ρ c (Proc.devRef .tc main_arg1) = m ((c : Thread nD τ).loc main_arg1) :=
  (StableHlo.after_of_forall_not_mem (b := Proc.devRef .tc main_arg1) _ _ (by not_written_by hostOps1)).trans (W2_arg1 m ρ c)
theorem W3_arg2 (c : Dev nD) : W3 m ρ c (Proc.devRef .tc main_arg2) = m ((c : Thread nD τ).loc main_arg2) :=
  (StableHlo.after_of_forall_not_mem (b := Proc.devRef .tc main_arg2) _ _ (by not_written_by hostOps1)).trans (W2_arg2 m ρ c)
theorem W3_arg3 (c : Dev nD) : W3 m ρ c (Proc.devRef .tc main_arg3) = m ((c : Thread nD τ).loc main_arg3) :=
  (StableHlo.after_of_forall_not_mem (b := Proc.devRef .tc main_arg3) _ _ (by not_written_by hostOps1)).trans (W2_arg3 m ρ c)
theorem W3_arg5 (c : Dev nD) : W3 m ρ c (Proc.devRef .tc main_arg5) = m ((c : Thread nD τ).loc main_arg5) :=
  (StableHlo.after_of_forall_not_mem (b := Proc.devRef .tc main_arg5) _ _ (by not_written_by hostOps1)).trans (W2_arg5 m ρ c)
theorem W3_arg6 (c : Dev nD) : W3 m ρ c (Proc.devRef .tc main_arg6) = m ((c : Thread nD τ).loc main_arg6) :=
  (StableHlo.after_of_forall_not_mem (b := Proc.devRef .tc main_arg6) _ _ (by not_written_by hostOps1)).trans (W2_arg6 m ρ c)

/-- The hidden layer's array, as a function of the arguments. -/
abbrev hiddenOf (c : Dev nD) : Spec.Mat 50000 64 :=
  Spec.hidden (agg128 (Spec.prenorm (m ((c : Thread nD τ).loc main_arg0)) (Spec.colOf (deg (m ((c : Thread nD τ).loc main_arg1)))))
      (m ((c : Thread nD τ).loc main_arg1)) (m ((c : Thread nD τ).loc main_arg2)))
    (Spec.colOf (deg (m ((c : Thread nD τ).loc main_arg2)))) (Spec.colOf (deg (m ((c : Thread nD τ).loc main_arg1))))
    (m ((c : Thread nD τ).loc main_arg3)) (Spec.rowOf (m ((c : Thread nD τ).loc main_arg4)))

/-! ## After the second launch: the hidden layer -/

theorem W4_v21 (c : Dev nD) : W4 m ρ c (Proc.devRef .tc main_v21) = hiddenOf m c := by
  refine (W4_arr m ρ c 5).trans ((Blocks.array1 (V3 m ρ) c).trans ?_)
  show Spec.hidden (W3 m ρ c (Proc.devRef .tc main_v19)) (W3 m ρ c (Proc.devRef .tc main_v8)) (W3 m ρ c (Proc.devRef .tc main_v4))
      (W3 m ρ c (Proc.devRef .tc main_arg3)) (W3 m ρ c (Proc.devRef .tc main_v20)) = _
  rw [W3_v19, W3_v8, W3_v4, W3_arg3, W3_v20]

theorem W4_v8 (c : Dev nD) : W4 m ρ c (Proc.devRef .tc main_v8) = Spec.colOf (deg (m ((c : Thread nD τ).loc main_arg2))) :=
  ((W4_arr m ρ c 1).trans (((dat1 (V3 m ρ) c).arrAt_in 1 rfl _).trans (A_eq1 (V3 m ρ) c 1))).trans (W3_v8 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)

/-! ## Before the third launch: the second aggregation and the bias row -/

theorem W5_v31 (c : Dev nD) : W5 m ρ c (Proc.devRef .tc main_v31)
    = agg64 (hiddenOf m c) (m ((c : Thread nD τ).loc main_arg1)) (m ((c : Thread nD τ).loc main_arg2)) := by
  rw [← W4_v21 m ρ c, ← W4_arg1 m ρ c, ← W4_arg2 m ρ c]
  show StableHlo.after hostOps2 (W4 m ρ c) (Proc.devRef .tc main_v31) = _
  after_results
  rfl

theorem W5_v32 (c : Dev nD) : W5 m ρ c (Proc.devRef .tc main_v32) = Spec.rowOf (m ((c : Thread nD τ).loc main_arg6)) := by
  rw [← shapeCast_row16, ← W4_arg6 m ρ c]
  show StableHlo.after hostOps2 (W4 m ρ c) (Proc.devRef .tc main_v32) = _
  after_results
  rfl

theorem W5_v8 (c : Dev nD) : W5 m ρ c (Proc.devRef .tc main_v8) = Spec.colOf (deg (m ((c : Thread nD τ).loc main_arg2))) :=
  (StableHlo.after_of_forall_not_mem (b := Proc.devRef .tc main_v8) _ _ (by not_written_by hostOps2)).trans (W4_v8 m ρ c)
theorem W5_arg5 (c : Dev nD) : W5 m ρ c (Proc.devRef .tc main_arg5) = m ((c : Thread nD τ).loc main_arg5) :=
  (StableHlo.after_of_forall_not_mem (b := Proc.devRef .tc main_arg5) _ _ (by not_written_by hostOps2)).trans (W4_arg5 m ρ c)

/-! ## After the third launch: the result -/

/-- THE KERNEL'S RESULT ARRAY as a function of the arguments: the output layer of the aggregated hidden layer. -/
theorem result_eq (c : Dev nD) : W6 m ρ c (Proc.devRef .tc main_v33)
    = Spec.output (agg64 (hiddenOf m c) (m ((c : Thread nD τ).loc main_arg1)) (m ((c : Thread nD τ).loc main_arg2)))
        (Spec.colOf (deg (m ((c : Thread nD τ).loc main_arg2)))) (m ((c : Thread nD τ).loc main_arg5))
        (Spec.rowOf (m ((c : Thread nD τ).loc main_arg6))) := by
  refine (W6_arr m ρ c 4).trans ((Blocks.array2 (V5 m ρ) c).trans ?_)
  show Spec.output (W5 m ρ c (Proc.devRef .tc main_v31)) (W5 m ρ c (Proc.devRef .tc main_v8)) (W5 m ρ c (Proc.devRef .tc main_arg5))
      (W5 m ρ c (Proc.devRef .tc main_v32)) = _
  rw [W5_v31, W5_v8, W5_arg5, W5_v32]

end Cert.KernelIdeal.Fold

end
-- ==== Proof.RefValue.lean ====
/-
  The reference's result as the three layer functions of `Spec` around its two aggregations. The reference
  computes, on whole arrays, `h = x · pow(max(1, deg_out), -1/2)`, gathers `h` at the edge sources and adds the rows
  into the edge targets, scales by the in-degree power, multiplies by the weights, adds the bias (clamping at zero
  after the first layer), and repeats. Index by index each pointwise stretch is the corresponding function of
  `Spec`, the power of `max(1, d) ≥ 1` with exponent `-1/2` being the reciprocal square root
  (`Spec.invSqrt_eq_hostPow`); the gathers and scatter-adds are carried as the opaque functions `deg`, `agg128`, `agg64`.
-/
import proofs.«173481_j2284922601619_1_alg».proof.Proof.Gen.ReferenceIdeal.Read
import proofs.«173481_j2284922601619_1_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx

/-- The degree vector of an edge-endpoint list: ones added into a zero vector at the listed nodes. -/
def deg (idx : IVec S1600000 32) : FVec Ideal S50000 .f32 :=
  Host.scatterAdd scatter_S50000_S1600000x1_S1600000_n_0_0_1
    (broadcastInDim S50000 ![] bcast_S_S50000 (constant S_ .f32 0x00000000#32))
    (broadcastInDim S1600000x1 ![0] bcast_S1600000_S1600000x1_0 idx)
    (broadcastInDim S1600000 ![] bcast_S_S1600000 (constant S_ .f32 0x3F800000#32))

/-- The edge sources with negative entries wrapped by the node count, as the gather's index column. -/
def srcCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- One aggregation at width 128: the rows of `h` at the edge sources, added into a zero array at the edge targets. -/
def agg128 (h : FVec Ideal S50000x128 .f32) (src dst : IVec S1600000 32) : FVec Ideal S50000x128 .f32 :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 dst)
    (Host.gather gather_S50000x128_S1600000x1_S1600000x128_1_0_n_n_0_1_1128 h (srcCol src))

/-- One aggregation at width 64. -/
def agg64 (h : FVec Ideal S50000x64 .f32) (src dst : IVec S1600000 32) : FVec Ideal S50000x64 .f32 :=
  Host.scatterAdd scatter_S50000x64_S1600000x1_S1600000x64_1_0_0_1
    (broadcastInDim S50000x64 ![] bcast_S_S50000x64 (constant S_ .f32 0x00000000#32))
    (broadcastInDim S1600000x1 ![0] bcast_S1600000_S1600000x1_0 dst)
    (Host.gather gather_S50000x64_S1600000x1_S1600000x64_1_0_n_n_0_1_164 h (srcCol src))

/-! ### The opaque stages are the opaque functions -/

theorem v3_eq (x1 : IVec S1600000 32) : val_main_v3 (F := Ideal) x1 = deg x1 := by
  unfold val_main_v3 val_main_v1 val_main_v2 val_main_v0 val_main_cst val_main_cst_0 deg; rfl

theorem v37_eq (x1 : IVec S1600000 32) : val_main_v37 (F := Ideal) x1 = deg x1 := by
  unfold val_main_v37 val_main_v35 val_main_v36 val_main_v34 val_main_cst_8 val_main_cst_9 deg; rfl

theorem v7_eq (x2 : IVec S1600000 32) : val_main_v7 (F := Ideal) x2 = deg x2 := by
  unfold val_main_v7 val_main_v5 val_main_v6 val_main_v0 val_main_cst val_main_cst_2 deg; rfl

theorem v41_eq (x2 : IVec S1600000 32) : val_main_v41 (F := Ideal) x2 = deg x2 := by
  unfold val_main_v41 val_main_v39 val_main_v40 val_main_v34 val_main_cst_8 val_main_cst_11 deg; rfl

theorem v19_eq (x1 : IVec S1600000 32) : val_main_v19 (F := Ideal) x1 = srcCol x1 := by
  unfold val_main_v19 val_main_v18 val_main_v15 val_main_v17 val_main_v14 val_main_v16 val_main_c val_main_c_5 srcCol; rfl

theorem v53_eq (x1 : IVec S1600000 32) : val_main_v53 (F := Ideal) x1 = srcCol x1 := by
  unfold val_main_v53 val_main_v52 val_main_v49 val_main_v51 val_main_v48 val_main_v50 val_main_c_14 val_main_c_15 srcCol; rfl

theorem v23_eq (x0 : FVec Ideal S50000x128 .f32) (x1 x2 : IVec S1600000 32) :
    val_main_v23 (F := Ideal) x0 x1 x2 = agg128 (val_main_v13 (F := Ideal) x0 x1) x1 x2 := by
  unfold val_main_v23 val_main_v20 agg128
  rw [v19_eq]
  unfold val_main_v21 val_main_v22 val_main_cst_6; rfl

theorem v57_eq (x0 : FVec Ideal S50000x128 .f32) (x1 x2 : IVec S1600000 32) (x3 : FVec Ideal S128x64 .f32)
    (x4 : FVec Ideal S64 .f32) :
    val_main_v57 (F := Ideal) x0 x1 x2 x3 x4 = agg64 (val_main_v47 (F := Ideal) x0 x1 x2 x3 x4) x1 x2 := by
  unfold val_main_v57 val_main_v54 agg64
  rw [v53_eq]
  unfold val_main_v55 val_main_v56 val_main_cst_16; rfl

/-! ### The node weights: the power of the clipped degree is the weight of the degree -/

theorem v10_at (x1 : IVec S1600000 32) (j : S50000.Idx) :
    val_main_v10 (F := Ideal) x1 j = Spec.invSqrt (deg x1 j) := by
  rw [val_main_v10_apply, val_main_v4_apply, val_main_call0_v1_apply, val_main_call0_v0_apply, val_main_cst_1_apply,
    val_main_v9_apply, val_main_cst_4_apply, v3_eq]
  simp only [Ideal.hostPowf_def, Ideal.maximumf_def, Ideal.ofBits_def]
  exact Spec.invSqrt_eq_hostPow _

theorem v25_at (x2 : IVec S1600000 32) (j : S50000.Idx) :
    val_main_v25 (F := Ideal) x2 j = Spec.invSqrt (deg x2 j) := by
  rw [val_main_v25_apply, val_main_v8_apply, val_main_call1_v1_apply, val_main_call1_v0_apply, val_main_cst_3_apply,
    val_main_v24_apply, val_main_cst_7_apply, v7_eq]
  simp only [Ideal.hostPowf_def, Ideal.maximumf_def, Ideal.ofBits_def]
  exact Spec.invSqrt_eq_hostPow _

theorem v44_at (x1 : IVec S1600000 32) (j : S50000.Idx) :
    val_main_v44 (F := Ideal) x1 j = Spec.invSqrt (deg x1 j) := by
  rw [val_main_v44_apply, val_main_v38_apply, val_main_call3_v1_apply, val_main_call3_v0_apply, val_main_cst_10_apply,
    val_main_v43_apply, val_main_cst_13_apply, v37_eq]
  simp only [Ideal.hostPowf_def, Ideal.maximumf_def, Ideal.ofBits_def]
  exact Spec.invSqrt_eq_hostPow _

theorem v59_at (x2 : IVec S1600000 32) (j : S50000.Idx) :
    val_main_v59 (F := Ideal) x2 j = Spec.invSqrt (deg x2 j) := by
  rw [val_main_v59_apply, val_main_v42_apply, val_main_call4_v1_apply, val_main_call4_v0_apply, val_main_cst_12_apply,
    val_main_v58_apply, val_main_cst_17_apply, v41_eq]
  simp only [Ideal.hostPowf_def, Ideal.maximumf_def, Ideal.ofBits_def]
  exact Spec.invSqrt_eq_hostPow _

/-! ### The broadcasts' composed index maps, by coordinates -/

theorem idx_v12 (i : S50000x128.Idx) :
    idx_main_v11 (idx_main_v12 i) = ix1 (Spec.row (ix2 (Spec.row i) (0 : Fin 1))) :=
  funext fun a => Fin.ext (by match a with | ⟨0, _⟩ => rfl)

theorem idx_v27 (i : S50000x128.Idx) :
    idx_main_v26 (idx_main_v27 i) = ix1 (Spec.row (ix2 (Spec.row i) (0 : Fin 1))) :=
  funext fun a => Fin.ext (by match a with | ⟨0, _⟩ => rfl)

theorem idx_v46 (i : S50000x64.Idx) :
    idx_main_v45 (idx_main_v46 i) = ix1 (Spec.row (ix2 (Spec.row i) (0 : Fin 1))) :=
  funext fun a => Fin.ext (by match a with | ⟨0, _⟩ => rfl)

theorem idx_v61 (i : S50000x64.Idx) :
    idx_main_v60 (idx_main_v61 i) = ix1 (Spec.row (ix2 (Spec.row i) (0 : Fin 1))) :=
  funext fun a => Fin.ext (by match a with | ⟨0, _⟩ => rfl)

theorem idx_v31 (i : S50000x64.Idx) :
    idx_main_v30 (idx_main_v31 i) = ix1 (Spec.col (ix2 (0 : Fin 1) (Spec.col i))) :=
  funext fun a => Fin.ext (by match a with | ⟨0, _⟩ => rfl)

theorem idx_v65 (i : S50000x16.Idx) :
    idx_main_v64 (idx_main_v65 i) = ix1 (Spec.col (ix2 (0 : Fin 1) (Spec.col i))) :=
  funext fun a => Fin.ext (by match a with | ⟨0, _⟩ => rfl)

theorem lidx_v29 (i : S50000x64.Idx) (k : Fin 128) : lidx_main_v29 i k = ix2 (Spec.row i) k :=
  funext fun a => Fin.ext (by match a with | ⟨0, _⟩ => rfl | ⟨1, _⟩ => rfl)

theorem ridx_v29 (i : S50000x64.Idx) (k : Fin 128) : ridx_main_v29 i k = ix2 k (Spec.col i) :=
  funext fun a => Fin.ext (by match a with | ⟨0, _⟩ => rfl | ⟨1, _⟩ => rfl)

theorem lidx_v63 (i : S50000x16.Idx) (k : Fin 64) : lidx_main_v63 i k = ix2 (Spec.row i) k :=
  funext fun a => Fin.ext (by match a with | ⟨0, _⟩ => rfl | ⟨1, _⟩ => rfl)

theorem ridx_v63 (i : S50000x16.Idx) (k : Fin 64) : ridx_main_v63 i k = ix2 k (Spec.col i) :=
  funext fun a => Fin.ext (by match a with | ⟨0, _⟩ => rfl | ⟨1, _⟩ => rfl)

/-! ### The first stage -/

theorem v13_eq (x0 : FVec Ideal S50000x128 .f32) (x1 : IVec S1600000 32) :
    val_main_v13 (F := Ideal) x0 x1 = Spec.prenorm x0 (Spec.colOf (deg x1)) := by
  funext i
  rw [val_main_v13_apply, val_main_v12_apply, val_main_v11_apply, v10_at, idx_v12, Ideal.mulf_def]
  rfl

/-! ### The hidden layer -/

theorem v28_at (x0 : FVec Ideal S50000x128 .f32) (x1 x2 : IVec S1600000 32) (j : S50000x128.Idx) :
    val_main_v28 (F := Ideal) x0 x1 x2 j
      = val_main_v23 (F := Ideal) x0 x1 x2 j * Spec.invSqrt (deg x2 (ix1 (Spec.row (ix2 (Spec.row j) (0 : Fin 1))))) := by
  rw [val_main_v28_apply, val_main_v27_apply, val_main_v26_apply, v25_at, idx_v27, Ideal.mulf_def]

theorem v47_eq (x0 : FVec Ideal S50000x128 .f32) (x1 x2 : IVec S1600000 32) (x3 : FVec Ideal S128x64 .f32)
    (x4 : FVec Ideal S64 .f32) :
    val_main_v47 (F := Ideal) x0 x1 x2 x3 x4
      = Spec.hidden (val_main_v23 (F := Ideal) x0 x1 x2) (Spec.colOf (deg x2)) (Spec.colOf (deg x1)) x3 (Spec.rowOf x4) := by
  funext i
  have hsum : (∑ k : Fin 128, (val_main_v28 (F := Ideal) x0 x1 x2) (lidx_main_v29 i k) * x3 (ridx_main_v29 i k))
      = ∑ k : Fin 128, (val_main_v23 (F := Ideal) x0 x1 x2 (ix2 (Spec.row i) k)
          * Spec.invSqrt (Spec.colOf (deg x2) (ix2 (Spec.row i) 0))) * x3 (ix2 k (Spec.col i)) :=
    Finset.sum_congr rfl fun k _ => by
      rw [lidx_v29, ridx_v29, v28_at]; rfl
  rw [val_main_v47_apply, val_main_v33_apply, val_main_v32_apply, val_main_v29_apply, hsum, val_main_v31_apply,
    val_main_v30_apply, idx_v31, val_main_call2_v0_apply, val_main_call2_cst_apply, val_main_v46_apply,
    val_main_v45_apply, v44_at, idx_v46, Ideal.mulf_def, Ideal.maximumf_def, Ideal.addf_def, Ideal.ofBits_def,
    Ideal.ofBits_zero_f32]
  rfl

/-! ### The output layer -/

theorem v62_at (x0 : FVec Ideal S50000x128 .f32) (x1 x2 : IVec S1600000 32) (x3 : FVec Ideal S128x64 .f32)
    (x4 : FVec Ideal S64 .f32) (j : S50000x64.Idx) :
    val_main_v62 (F := Ideal) x0 x1 x2 x3 x4 j
      = val_main_v57 (F := Ideal) x0 x1 x2 x3 x4 j
          * Spec.invSqrt (deg x2 (ix1 (Spec.row (ix2 (Spec.row j) (0 : Fin 1))))) := by
  rw [val_main_v62_apply, val_main_v61_apply, val_main_v60_apply, v59_at, idx_v61, Ideal.mulf_def]

theorem v66_eq (x0 : FVec Ideal S50000x128 .f32) (x1 x2 : IVec S1600000 32) (x3 : FVec Ideal S128x64 .f32)
    (x4 : FVec Ideal S64 .f32) (x5 : FVec Ideal S64x16 .f32) (x6 : FVec Ideal S16 .f32) :
    val_main_v66 (F := Ideal) x0 x1 x2 x3 x4 x5 x6
      = Spec.output (val_main_v57 (F := Ideal) x0 x1 x2 x3 x4) (Spec.colOf (deg x2)) x5 (Spec.rowOf x6) := by
  funext i
  have hsum : (∑ k : Fin 64, (val_main_v62 (F := Ideal) x0 x1 x2 x3 x4) (lidx_main_v63 i k) * x5 (ridx_main_v63 i k))
      = ∑ k : Fin 64, (val_main_v57 (F := Ideal) x0 x1 x2 x3 x4 (ix2 (Spec.row i) k)
          * Spec.invSqrt (Spec.colOf (deg x2) (ix2 (Spec.row i) 0))) * x5 (ix2 k (Spec.col i)) :=
    Finset.sum_congr rfl fun k _ => by
      rw [lidx_v63, ridx_v63, v62_at]; rfl
  rw [val_main_v66_apply, val_main_v63_apply, hsum, val_main_v65_apply, val_main_v64_apply, idx_v65, Ideal.addf_def]
  rfl

/-- The reference's result is the output layer of the aggregated hidden layer of the aggregated scaled features. -/
theorem result_eq (x0 : FVec Ideal S50000x128 .f32) (x1 x2 : IVec S1600000 32) (x3 : FVec Ideal S128x64 .f32)
    (x4 : FVec Ideal S64 .f32) (x5 : FVec Ideal S64x16 .f32) (x6 : FVec Ideal S16 .f32) :
    val_main_v66 (F := Ideal) x0 x1 x2 x3 x4 x5 x6
      = Spec.output (agg64 (Spec.hidden (agg128 (Spec.prenorm x0 (Spec.colOf (deg x1))) x1 x2)
          (Spec.colOf (deg x2)) (Spec.colOf (deg x1)) x3 (Spec.rowOf x4)) x1 x2) (Spec.colOf (deg x2)) x5 (Spec.rowOf x6) := by
  rw [v66_eq, v57_eq, v47_eq, v23_eq, v13_eq]

end Cert.ReferenceIdeal.RefValue

end
-- ==== Proof.lean ====
/-
  The kernel (three launches around two gather / scatter-add aggregations) and the reference (the same two graph
  convolution layers on whole arrays) compute one function over the extended reals. Both scale rows by
  `max(deg, 1)^(-1/2)`: the kernel as a reciprocal square root, the reference as a power with exponent `-1/2`, equal
  on arguments that are at least one. `Spec` states the three layer functions once; the kernel's result is read off
  its run launch by launch and host stretch by host stretch (`Fold.result_eq`), the reference's off its run
  operation by operation (`RefValue.result_eq`); the aggregations are the same gathers and scatter-adds on both
  sides and are never opened. No law here needs the inputs finite, so the precondition is not used.
-/
import proofs.«173481_j2284922601619_1_alg».proof.Defs
import proofs.«173481_j2284922601619_1_alg».proof.Proof.Gen.Kernel
import proofs.«173481_j2284922601619_1_alg».proof.Proof.Gen.Kernel.Skeleton
import proofs.«173481_j2284922601619_1_alg».proof.Proof.Gen.Kernel.Launch
import proofs.«173481_j2284922601619_1_alg».proof.Proof.Gen.Kernel.Points
import proofs.«173481_j2284922601619_1_alg».proof.Proof.Gen.Kernel.Frame
import proofs.«173481_j2284922601619_1_alg».proof.Proof.Gen.KernelIdeal
import proofs.«173481_j2284922601619_1_alg».proof.Proof.Gen.KernelIdeal.Skeleton
import proofs.«173481_j2284922601619_1_alg».proof.Proof.Gen.KernelIdeal.Launch
import proofs.«173481_j2284922601619_1_alg».proof.Proof.Gen.KernelIdeal.Points
import proofs.«173481_j2284922601619_1_alg».proof.Proof.Gen.KernelIdeal.Frame
import proofs.«173481_j2284922601619_1_alg».proof.Proof.Gen.ReferenceIdeal
import proofs.«173481_j2284922601619_1_alg».proof.Proof.Gen.Pre_finite_inputs
import proofs.«173481_j2284922601619_1_alg».proof.Proof.Gen.ReferenceIdeal.Run
import proofs.«173481_j2284922601619_1_alg».proof.Proof.Gen.ReferenceIdeal.Read
import proofs.«173481_j2284922601619_1_alg».proof.Proof.Spec
import proofs.«173481_j2284922601619_1_alg».proof.Proof.KernelRun
import proofs.«173481_j2284922601619_1_alg».proof.Proof.KernelFold
import proofs.«173481_j2284922601619_1_alg».proof.Proof.RefValue
import Idealize.ShloMosaic.Adequacy
import Idealize.ShloMosaic.Init

noncomputable section

namespace Cert.Proof

open Idealize.ShloMosaic Idealize.SL.Sem

/-! ## The aggregations are the same functions in the two programs -/

theorem deg_eq (x : IVec Cert.KernelIdeal.S1600000 32) :
    Cert.ReferenceIdeal.RefValue.deg x = Cert.KernelIdeal.Fold.deg x := rfl

theorem agg128_eq (h : FVec Ideal Cert.KernelIdeal.S50000x128 .f32) (src dst : IVec Cert.KernelIdeal.S1600000 32) :
    Cert.ReferenceIdeal.RefValue.agg128 h src dst = Cert.KernelIdeal.Fold.agg128 h src dst := rfl

theorem agg64_eq (h : FVec Ideal Cert.KernelIdeal.S50000x64 .f32) (src dst : IVec Cert.KernelIdeal.S1600000 32) :
    Cert.ReferenceIdeal.RefValue.agg64 h src dst = Cert.KernelIdeal.Fold.agg64 h src dst := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the output layer of the aggregated hidden layer of the aggregated scaled
    features of the (agreeing) arguments. -/
theorem algebraic : Cert.algebraic_KernelIdeal_ReferenceIdeal := by
  intro m ρ m' ρ' _ hagree
  refine ⟨fun c => Cert.KernelIdeal.Gen.W6 m ρ c (Proc.devRef .tc Cert.KernelIdeal.main_v33),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  show Cert.ReferenceIdeal.Value.res_main_v66 m' c
    = Cert.KernelIdeal.Gen.W6 m ρ c (Proc.devRef .tc Cert.KernelIdeal.main_v33)
  rw [Cert.ReferenceIdeal.Read.val_main_v66_eq, Cert.ReferenceIdeal.RefValue.result_eq, Cert.KernelIdeal.Fold.result_eq,
    h0, h1, h2, h3, h4, h5, h6]
  simp only [deg_eq, agg128_eq, agg64_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
